-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S96x1024 : Shape := ⟨2, ![96, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S96x1024 : S_.BroadcastsInDim S96x1024 (![] : Fin 0 → Fin S96x1024.rank)
  reducesTo_S96x1024_S_d0_1 : S96x1024.ReducesTo [0, 1] S_

variable [Facts]

def fn {F : FTy → Type} [FloatOps F] (main_arg0 : FVec F S65536x1024 .f32) (main_arg1 : FVec F S96x1024 .f32) (main_arg2 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S96x1024 .f32 := Host.absf main_arg1
  let main_cst_0 : FVec F S_ .f32 := constant S_ .f32 0x7F800000#32
  let main_v5 : FVec F S96x1024 .f32 := broadcastInDim S96x1024 ![] bcast_S_S96x1024 main_cst_0
  let main_v6 : IVec S96x1024 1 := cmpf .olt main_v4 main_v5
  let main_c_1 : IVec S_ 1 := constantI S_ 1 1#1
  let main_v7 : IVec S_ 1 := (fun x v => Host.reduce IntOp.andi x v reducesTo_S96x1024_S_d0_1 h_S_) main_v6 main_c_1
  let main_v8 : IVec S_ 1 := andi main_v3 main_v7
  main_v8
-- ==== Kernel.lean ====
abbrev S65536x1024 : Shape := ⟨2, ![65536, 1024]⟩
abbrev S96x1024 : Shape := ⟨2, ![96, 1024]⟩
abbrev S65536 : Shape := ⟨1, ![65536]⟩
abbrev S65536x1 : Shape := ⟨2, ![65536, 1]⟩
abbrev S16x128 : Shape := ⟨2, ![16, 128]⟩
abbrev S2048x1024 : Shape := ⟨2, ![2048, 1024]⟩
abbrev S2048x1 : Shape := ⟨2, ![2048, 1]⟩
abbrev S8x128 : Shape := ⟨2, ![8, 128]⟩
abbrev S1024x96 : Shape := ⟨2, ![1024, 96]⟩
abbrev S2048x96 : Shape := ⟨2, ![2048, 96]⟩
abbrev S2048 : Shape := ⟨1, ![2048]⟩
abbrev S96 : Shape := ⟨1, ![96]⟩
abbrev S1x96 : Shape := ⟨2, ![1, 96]⟩
abbrev S1 : Shape := ⟨1, ![1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S96x1024, .f32⟩
  | .hbm, ⟨2, _⟩ => ⟨S65536, .i32⟩
  | .hbm, ⟨3, _⟩ => ⟨S65536x1, .i32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S96x1024, .f32⟩
  | .local _ .vmem, ⟨3, _⟩ => ⟨S2048x1, .i32⟩
  | .local _ .vmem, ⟨4, _⟩ => ⟨S2048x1, .i32⟩
  | .local _ .vmem, ⟨5, _⟩ => ⟨S8x128, .f32⟩
  | .local _ .vmem, ⟨6, _⟩ => ⟨S8x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S96x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S65536_S65536x1 : S65536.ShapeCasts S65536x1
  inb_S8x128_S8x128_0_0 : ∀ a, (![0, 0] : Fin 2 → Nat) a + S8x128.size a ≤ S8x128.size a
  h_S8x128 : 0 < S8x128.numel
  inb_S2048x1024_S2048x1024_0_0 : ∀ a, (![0, 0] : Fin 2 → Nat) a + S2048x1024.size a ≤ S2048x1024.size a
  h_S2048x1024 : 0 < S2048x1024.numel
  inb_S96x1024_S96x1024_0_0 : ∀ a, (![0, 0] : Fin 2 → Nat) a + S96x1024.size a ≤ S96x1024.size a
  h_S96x1024 : 0 < S96x1024.numel
  bitsLt_bf16_f32 : FTy.bits .bf16 < FTy.bits .f32
  transposes_S96x1024_p1_0_S1024x96 : S96x1024.Transposes [1, 0] S1024x96
  reduces_S2048x1024_S2048 : S2048x1024.Reduces [1] S2048
  shapeCasts_S2048_S2048x1 : S2048.ShapeCasts S2048x1
  reduces_S96x1024_S96 : S96x1024.Reduces [1] S96
  shapeCasts_S96_S1x96 : S96.ShapeCasts S1x96
  broadcasts_S2048x1_S2048x96 : S2048x1.Broadcasts S2048x96
  broadcasts_S1x96_S2048x96 : S1x96.Broadcasts S2048x96
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x96_d1_w32 : S2048x96.Iotas .tc 32 [1]
  natLt_1_32 : 1 < 32
  reduces_S2048x96_S2048 : S2048x96.Reduces [1] S2048
  reduces_S2048x1_S1 : S2048x1.Reduces [0] S1
  shapeCasts_S1_S1x1 : S1.ShapeCasts S1x1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  reducesTo_S16x128_S_d0_1 : S16x128.ReducesTo [0, 1] S_
  h_S_ : 0 < S_.numel
  dot_S2048x1024_S1024x96_S2048x96_1_0_0_1_n_n_wf : DotDims.WF S2048x1024 S1024x96 S2048x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x1024.size a ≤ S96x1024.size a
  hwx0_1 : ∀ i : grid0.Coords, EltTy.bits .f32 = 32 ∨ (Rect.block (s := S96x1024) S96x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S65536x1.size a
  hwx0_2 : ∀ i : grid0.Coords, EltTy.bits .i32 = 32 ∨ (Rect.block (s := S65536x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S2048x1024_S1024x96_S2048x96_1_0_0_1_n_n : DotDims S2048x1024 S1024x96 S2048x96 where
  lhsContracting := [1]
  rhsContracting := [0]
  lhsNonContracting := [0]
  rhsNonContracting := [1]
  lhsBatch := []
  rhsBatch := []
  wf := dot_S2048x1024_S1024x96_S2048x96_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S96x1024 : Shape := ⟨2, ![96, 1024]⟩
abbrev S65536 : Shape := ⟨1, ![65536]⟩
abbrev S_ : Shape := ⟨0, ![]⟩
abbrev S65536x1 : Shape := ⟨2, ![65536, 1]⟩
abbrev S96 : Shape := ⟨1, ![96]⟩
abbrev S1x96 : Shape := ⟨2, ![1, 96]⟩
abbrev S65536x96 : Shape := ⟨2, ![65536, 96]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S96x1024, .f32⟩
  | .hbm, ⟨2, _⟩ => ⟨S65536, .i32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S96x1024, .f32⟩
  | .hbm, ⟨8, _⟩ => ⟨S_, .f32⟩
  | .hbm, ⟨9, _⟩ => ⟨S96, .f32⟩
  | .hbm, ⟨10, _⟩ => ⟨S1x96, .f32⟩
  | .hbm, ⟨11, _⟩ => ⟨S65536x96, .f32⟩
  | .hbm, ⟨12, _⟩ => ⟨S65536x96, .f32⟩
  | .hbm, ⟨13, _⟩ => ⟨S65536x96, .f32⟩
  | .hbm, ⟨14, _⟩ => ⟨S65536x96, .f32⟩
  | .hbm, ⟨15, _⟩ => ⟨S_, .f32⟩
  | .hbm, ⟨16, _⟩ => ⟨S65536x96, .f32⟩
  | .hbm, ⟨17, _⟩ => ⟨S65536x96, .f32⟩
  | .hbm, ⟨18, _⟩ => ⟨S65536x96, .f32⟩
  | .hbm, ⟨19, _⟩ => ⟨S65536x1, .i32⟩
  | .hbm, ⟨20, _⟩ => ⟨S96, .i32⟩
  | .hbm, ⟨21, _⟩ => ⟨S1x96, .i32⟩
  | .hbm, ⟨22, _⟩ => ⟨S65536x96, .i32⟩
  | .hbm, ⟨23, _⟩ => ⟨S65536x96, .i32⟩
  | .hbm, ⟨24, _⟩ => ⟨S65536x96, .i1⟩
  | .hbm, ⟨25, _⟩ => ⟨S65536x96, .f32⟩
  | .hbm, ⟨26, _⟩ => ⟨S65536x96, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S65536x96, .f32⟩
  | .hbm, ⟨31, _⟩ => ⟨S65536x96, .f32⟩
  | .hbm, ⟨32, _⟩ => ⟨S_, .f32⟩
  | .hbm, ⟨33, _⟩ => ⟨S65536x96, .f32⟩
  | .hbm, ⟨34, _⟩ => ⟨S65536x96, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  reducesTo_S96x1024_S96_d1 : S96x1024.ReducesTo [1] S96
  bcast_S96_S1x96_1 : S96.BroadcastsInDim S1x96 (![1] : Fin 1 → Fin S1x96.rank)
  bcast_S65536x1_S65536x96_0_1 : S65536x1.BroadcastsInDim S65536x96 (![0, 1] : Fin 2 → Fin S65536x96.rank)
  bcast_S1x96_S65536x96_0_1 : S1x96.BroadcastsInDim S65536x96 (![0, 1] : Fin 2 → Fin S65536x96.rank)
  bcast_S_S65536x96 : S_.BroadcastsInDim S65536x96 (![] : Fin 0 → Fin S65536x96.rank)
  reducesTo_S65536x96_S_d0_1 : S65536x96.ReducesTo [0, 1] S_
  dot_S65536x1024_S96x1024_S65536x96_1_1_0_0_n_n_wf : DotDims.WF S65536x1024 S96x1024 S65536x96 [1] [1] [0] [0] [] []

variable [Facts₀]

def dot_S65536x1024_S96x1024_S65536x96_1_1_0_0_n_n : DotDims S65536x1024 S96x1024 S65536x96 where
  lhsContracting := [1]
  rhsContracting := [1]
  lhsNonContracting := [0]
  rhsNonContracting := [0]
  lhsBatch := []
  rhsBatch := []
  wf := dot_S65536x1024_S96x1024_S65536x96_1_1_0_0_n_n_wf

class Facts : Prop extends Facts₀ where

variable [Facts]
-- ==== Proof.Spec.lean ====
/-
  The centre loss as one function of the three argument arrays, and the regrouping of its double sum.

  For a sample b (a row of the 65536 × 1024 feature array f) and a class j (a row of the 96 × 1024 centre array c) the
  squared distance is written  ‖f_b‖² + ‖c_j‖² − 2 · ⟨f_b, c_j⟩,  each of the three a sum over the 1024 coordinates.
  It is multiplied by 1 when the sample's label is j and by 0 otherwise, clipped into [lo, hi], summed over every
  pair (b, j) and divided by the number of samples. Every operation is the extended reals' own; the four constants
  (2, lo, hi, 65536) stay the binary words both programs print, so they are never evaluated.

  A sum over all 65536 samples is the same as the sum, over 32 tiles of 2048 consecutive samples, of the tile's sum:
  only the index set is renamed (b = 2048 · t + r), and addition of extended reals is commutative and associative.
-/
import Idealize.ShloMosaic.PureOps.Ideal.Laws
import Idealize.ShloMosaic.Lib.ValueIdx

noncomputable section

open scoped BigOperators

namespace Cert.CenterLoss

open Idealize.ShloMosaic Idealize.ShloMosaic.ValueIdx

/-- The features' shape, the centres' shape and the labels' shape. -/
abbrev SFeat : Shape := ⟨2, ![65536, 1024]⟩
abbrev SCen : Shape := ⟨2, ![96, 1024]⟩
abbrev SLab : Shape := ⟨1, ![65536]⟩

/-- The squared norm of row `a` of an array with 1024 columns. -/
def sqNorm {n : Nat} (x : (⟨2, ![n, 1024]⟩ : Shape).Idx → EReal) (a : Fin n) : EReal :=
  ∑ k : Fin 1024, x (ix2 a k) * x (ix2 a k)

/-- The inner product of sample `b` with centre `j`. -/
def cross (f : SFeat.Idx → EReal) (c : SCen.Idx → EReal) (b : Fin 65536) (j : Fin 96) : EReal :=
  ∑ k : Fin 1024, f (ix2 b k) * c (ix2 j k)

/-- The bit "sample `b` has label `j`". -/
def hit (lab : SLab.Idx → BitVec 32) (b : Fin 65536) (j : Fin 96) : BitVec 1 :=
  IntOp.cmpi .eq (lab (ix1 b)) (BitVec.ofNat 32 j.val)

/-- Clipping into [lo, hi]: first raised to at least lo, then lowered to at most hi. -/
def clip (x : EReal) : EReal :=
  min (Ideal.ofBits .f32 0x5368D4A5#32) (max (Ideal.ofBits .f32 0x2B8CBCCC#32) x)

/-- The clipped, masked squared distance of the pair (b, j). -/
def term (f : SFeat.Idx → EReal) (c : SCen.Idx → EReal) (lab : SLab.Idx → BitVec 32) (b : Fin 65536) (j : Fin 96) : EReal :=
  clip (((sqNorm f b + sqNorm c j) - Ideal.ofBits .f32 0x40000000#32 * cross f c b j)
    * (((hit lab b j).toNat : ℝ) : EReal))

/-- The sum of all terms. -/
def total (f : SFeat.Idx → EReal) (c : SCen.Idx → EReal) (lab : SLab.Idx → BitVec 32) : EReal :=
  ∑ b : Fin 65536, ∑ j : Fin 96, term f c lab b j

/-- The loss: the total divided by the number of samples. -/
def loss (f : SFeat.Idx → EReal) (c : SCen.Idx → EReal) (lab : SLab.Idx → BitVec 32) : EReal :=
  Ideal.div (total f c lab) (Ideal.ofBits .f32 0x47800000#32)

/-! ## Tiles of 2048 samples -/

/-- Sample `r` of tile `t`. -/
def tileRow (t : Fin 32) (r : Fin 2048) : Fin 65536 := ⟨2048 * t.val + r.val, by have := t.isLt; have := r.isLt; omega⟩

/-- The sum of the terms of one tile. -/
def tileTotal (f : SFeat.Idx → EReal) (c : SCen.Idx → EReal) (lab : SLab.Idx → BitVec 32) (t : Fin 32) : EReal :=
  ∑ r : Fin 2048, ∑ j : Fin 96, term f c lab (tileRow t r) j

/-- A sum over `m · n` positions is the double sum over `m` groups of `n` consecutive positions. -/
theorem sum_groups {β : Type*} [AddCommMonoid β] (m n : ℕ) (g : Fin (m * n) → β) :
    ∑ b, g b = ∑ t : Fin m, ∑ r : Fin n, g (finProdFinEquiv (t, r)) := by
  rw [← Equiv.sum_comp finProdFinEquiv g, Fintype.sum_prod_type]

/-- The total is the sum of the 32 tile totals. -/
theorem total_eq_sum_tiles (f : SFeat.Idx → EReal) (c : SCen.Idx → EReal) (lab : SLab.Idx → BitVec 32) :
    total f c lab = ∑ t : Fin 32, tileTotal f c lab t := by
  unfold total tileTotal
  rw [sum_groups 32 2048 (fun b : Fin (32 * 2048) => ∑ j : Fin 96, term f c lab b j)]
  refine Finset.sum_congr rfl fun t _ => Finset.sum_congr rfl fun r _ => ?_
  have e : (finProdFinEquiv (t, r) : Fin (32 * 2048)) = tileRow t r := Fin.ext (by
    show r.val + 2048 * t.val = 2048 * t.val + r.val
    omega)
  rw [e]

/-- The 32 tiles are two runs of 16: tile `16 · p + u`. -/
def runTile (p : Fin 2) (u : Fin 16) : Fin 32 := ⟨16 * p.val + u.val, by have := p.isLt; have := u.isLt; omega⟩

theorem sum_tiles_eq_sum_runs {β : Type*} [AddCommMonoid β] (g : Fin 32 → β) :
    ∑ t : Fin 32, g t = ∑ p : Fin 2, ∑ u : Fin 16, g (runTile p u) := by
  rw [sum_groups 2 16 (fun t : Fin (2 * 16) => g t)]
  refine Finset.sum_congr rfl fun p _ => Finset.sum_congr rfl fun u _ => ?_
  have e : (finProdFinEquiv (p, u) : Fin (2 * 16)) = runTile p u := Fin.ext (by
    show u.val + 16 * p.val = 16 * p.val + u.val
    omega)
  rw [e]

/-- The tile totals with the tile's number a natural number (zero past the last tile). -/
def tileTotalN (f : SFeat.Idx → EReal) (c : SCen.Idx → EReal) (lab : SLab.Idx → BitVec 32) (n : ℕ) : EReal :=
  if h : n < 32 then tileTotal f c lab ⟨n, h⟩ else 0

/-! ## The corner entries of the 8 × 128 blocks

Each tile's total is added at one entry of an 8 × 128 block, the corner (row 0, lane 0); every other entry gets zero.
The two runs of 16 tiles fill two such blocks, stacked as a 16 × 128 array. Summing that array over all its entries
therefore collects every tile's total exactly once. -/

/-- What a tile adds at entry `(q, l)` of its block: its number at the corner, zero elsewhere. -/
def addend (x : EReal) (q l : ℕ) : EReal := if q = 0 ∧ l = 0 then x else 0

/-- Over a whole block the addends sum to the number. -/
theorem sum_addend (x : EReal) : ∑ q : Fin 8, ∑ l : Fin 128, addend x q.val l.val = x := by
  have inner : ∀ q : Fin 8, ∑ l : Fin 128, addend x q.val l.val = if q.val = 0 then x else 0 := fun q => by
    rw [Finset.sum_eq_single (0 : Fin 128) (fun l _ hl => by
      have : l.val ≠ 0 := fun h => hl (Fin.ext h)
      simp [addend, this]) (fun h => absurd (Finset.mem_univ _) h)]
    simp [addend]
  simp only [inner]
  rw [Finset.sum_eq_single (0 : Fin 8) (fun q _ hq => by
      have : q.val ≠ 0 := fun h => hq (Fin.ext h)
      simp [this]) (fun h => absurd (Finset.mem_univ _) h)]
  simp

/-- The sum over the stacked 16 × 128 array, whose entry `(R, L)` holds the sum over the 16 tiles of run `R / 8` of
    their addends at `(R % 8, L)`, is the sum of all tile numbers. -/
theorem sum_corner_blocks (T : ℕ → EReal) :
    ∑ R : Fin 16, ∑ L : Fin 128, ∑ u ∈ Finset.range 16, addend (T (16 * (R.val / 8) + u)) (R.val % 8) L.val
      = ∑ p : Fin 2, ∑ u : Fin 16, T (16 * p.val + u.val) := by
  rw [sum_groups 2 8 (fun R : Fin (2 * 8) =>
    ∑ L : Fin 128, ∑ u ∈ Finset.range 16, addend (T (16 * (R.val / 8) + u)) (R.val % 8) L.val)]
  refine Finset.sum_congr rfl fun p _ => ?_
  have hdiv : ∀ q : Fin 8, (finProdFinEquiv (p, q) : Fin (2 * 8)).val / 8 = p.val := fun q => by
    have e : (finProdFinEquiv (p, q) : Fin (2 * 8)).val = q.val + 8 * p.val := rfl
    rw [e]; have := q.isLt; omega
  have hmod : ∀ q : Fin 8, (finProdFinEquiv (p, q) : Fin (2 * 8)).val % 8 = q.val := fun q => by
    have e : (finProdFinEquiv (p, q) : Fin (2 * 8)).val = q.val + 8 * p.val := rfl
    rw [e]; have := q.isLt; omega
  simp only [hdiv, hmod]
  refine ((Finset.sum_congr rfl fun q _ => Finset.sum_comm).trans Finset.sum_comm).trans ?_
  simp only [sum_addend]
  exact Finset.sum_range (fun u => T (16 * p.val + u))

/-- So the stacked array of corner sums of the tile totals sums to the total. -/
theorem corner_sum_eq_total (f : SFeat.Idx → EReal) (c : SCen.Idx → EReal) (lab : SLab.Idx → BitVec 32) :
    ∑ R : Fin 16, ∑ L : Fin 128, ∑ u ∈ Finset.range 16,
        addend (tileTotalN f c lab (16 * (R.val / 8) + u)) (R.val % 8) L.val = total f c lab := by
  rw [sum_corner_blocks, total_eq_sum_tiles, sum_tiles_eq_sum_runs]
  refine Finset.sum_congr rfl fun p _ => Finset.sum_congr rfl fun u _ => ?_
  exact dif_pos (runTile p u).isLt

/-! ## Words -/

/-- A one-bit word widened to 32 bits and read as a signed integer is the bit itself. -/
theorem bit_signed_eq (b : BitVec 1) : (((b.setWidth 32).toInt : ℝ) : EReal) = ((b.toNat : ℝ) : EReal) := by
  rcases BitVec.eq_zero_or_eq_one b with rfl | rfl <;> simp

/-- Among row numbers below 8 and lane numbers below 128, the bit "row number is 0 and lane number is 0". -/
theorem corner_bit (q l : ℕ) (hq : q < 8) (hl : l < 128) :
    IntOp.andi (IntOp.cmpi .eq (BitVec.ofNat 32 q) 0#32) (IntOp.cmpi .eq (BitVec.ofNat 32 l) 0#32) = 1#1 ↔ q = 0 ∧ l = 0 := by
  have hq' : (BitVec.ofNat 32 q == 0#32) = decide (q = 0) := by
    rcases Nat.eq_zero_or_pos q with rfl | h
    · rfl
    · have : BitVec.ofNat 32 q ≠ 0#32 := fun e => by
        have := congrArg BitVec.toNat e
        simp at this
        omega
      simp [this, Nat.pos_iff_ne_zero.mp h]
  have hl' : (BitVec.ofNat 32 l == 0#32) = decide (l = 0) := by
    rcases Nat.eq_zero_or_pos l with rfl | h
    · rfl
    · have : BitVec.ofNat 32 l ≠ 0#32 := fun e => by
        have := congrArg BitVec.toNat e
        simp at this
        omega
      simp [this, Nat.pos_iff_ne_zero.mp h]
  unfold IntOp.andi IntOp.cmpi
  simp only [hq', hl']
  by_cases h0 : q = 0 <;> by_cases h1 : l = 0 <;> simp [h0, h1]

end Cert.CenterLoss

end
-- ==== Proof.RefSide.lean ====
/-
  The reference computes the centre loss.

  Read one operation at a time, the reference forms for every pair (b, j) the squared distance
  (0 + ‖f_b‖²) + (0 + ‖c_j‖²) − 2 · ⟨f_b, c_j⟩ — its two row sums start from a zero, which adds nothing —, multiplies it
  by the bit "label of b is j" read as an unsigned number, clips it, sums all pairs starting from a zero and divides by
  65536. The broadcasts only rename indices: the entry (b, j) of a broadcast column is the column's entry b, of a
  broadcast row the row's entry j.
-/
import proofs.«177661_j85985245266075_1_alg».proof.Defs
import proofs.«177661_j85985245266075_1_alg».proof.Proof.Gen.ReferenceIdeal.Run
import proofs.«177661_j85985245266075_1_alg».proof.Proof.Gen.ReferenceIdeal.Read
import proofs.«177661_j85985245266075_1_alg».proof.Proof.Spec

noncomputable section

open scoped BigOperators

namespace Cert.ReferenceIdeal.RefValue

open Idealize.ShloMosaic Idealize.ShloMosaic.ValueIdx
open Cert.ReferenceIdeal Cert.ReferenceIdeal.Read Cert.CenterLoss

/-- The reference's clipped array at the pair `(b, j)` is the pair's term. -/
theorem clipped_apply (x0 : FVec Ideal S65536x1024 .f32) (x1 : FVec Ideal S96x1024 .f32) (x2 : IVec S65536 32)
    (b : Fin 65536) (j : Fin 96) :
    val_main_v21 (F := Ideal) x0 x1 x2 (ix2 b j) = term x0 x1 x2 b j := by
  have e1 : ∀ k, idx_main_v1 (idx_main_v2 (idx_main_v6 (ix2 b j))) k = ix2 b k := fun k =>
    funext fun a => Fin.ext (by match a with | ⟨0, _⟩ => rfl | ⟨1, _⟩ => rfl)
  have e2 : ∀ k, idx_main_v4 (idx_main_v5 (idx_main_v7 (ix2 b j))) k = ix2 j k := fun k =>
    funext fun a => Fin.ext (by match a with | ⟨0, _⟩ => rfl | ⟨1, _⟩ => rfl)
  have e3 : ∀ k, lidx_main_v9 (ix2 b j) k = ix2 b k := fun k =>
    funext fun a => Fin.ext (by match a with | ⟨0, _⟩ => rfl | ⟨1, _⟩ => rfl)
  have e4 : ∀ k, ridx_main_v9 (ix2 b j) k = ix2 j k := fun k =>
    funext fun a => Fin.ext (by match a with | ⟨0, _⟩ => rfl | ⟨1, _⟩ => rfl)
  have e5 : idx_main_v13 (idx_main_v16 (ix2 b j)) = ix1 b :=
    funext fun a => Fin.ext (by match a with | ⟨0, _⟩ => rfl)
  have e6 : ((idx_main_v15 (idx_main_v17 (ix2 b j))) 0).val = j.val := rfl
  rw [val_main_v21_apply, val_main_call0_v4_apply, val_main_call0_v3_apply, val_main_cst_3_apply,
    val_main_call0_v2_apply, val_main_call0_v1_apply, val_main_call0_v0_apply, val_main_cst_2_apply,
    val_main_v20_apply, val_main_v12_apply, val_main_v8_apply, val_main_v6_apply, val_main_v2_apply, val_main_v1_apply,
    val_main_cst_apply, val_main_v7_apply, val_main_v5_apply, val_main_v4_apply, val_main_cst_0_apply,
    val_main_v11_apply, val_main_v10_apply, val_main_cst_1_apply, val_main_v9_apply,
    val_main_v19_apply, val_main_v18_apply, val_main_v16_apply, val_main_v13_apply, val_main_v17_apply,
    val_main_v15_apply, val_main_v14_apply]
  simp only [val_main_v0_apply, val_main_v3_apply, e1, e2, e3, e4, e5, e6]
  unfold term clip sqNorm cross hit
  simp only [Ideal.ofBits_def, Ideal.minimumf_def, Ideal.maximumf_def, Ideal.mulf_def, Ideal.subf_def, Ideal.addf_def,
    Ideal.ofBits_zero_f32, zero_add]
  rfl

/-- The reference's result is the loss of its three arguments. -/
theorem result_eq (x0 : FVec Ideal S65536x1024 .f32) (x1 : FVec Ideal S96x1024 .f32) (x2 : IVec S65536 32) (i : S_.Idx) :
    val_main_v23 (F := Ideal) x0 x1 x2 i = loss x0 x1 x2 := by
  rw [val_main_v23_apply, val_main_v22_apply, val_main_cst_5_apply, val_main_cst_4_apply]
  simp only [Ideal.ofBits_def, Ideal.hostDivf_def, Ideal.ofBits_zero_f32, zero_add]
  unfold loss total
  rw [sum_idx2]
  simp only [clipped_apply]

end Cert.ReferenceIdeal.RefValue

end
-- ==== Proof.Pieces.lean ====
/-
  What one grid point leaves in the 8 × 128 output block, as a function of the point's three input blocks and of what
  the block held before: the block's previous contents plus, at the corner entry (row 0, lane 0) only, the sum the
  point computes from its inputs. At the first point of a run the previous contents are the all-zero block the body
  has just stored; at every later point they are what the point before left.
-/
import proofs.«177661_j85985245266075_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One point's update of the output block `acc`, from the point's feature block `x0`, the centres `x1` and the point's
    label block `x2`. -/
def step (x0 : Vec F S2048x1024 .f32) (x1 : Vec F S96x1024 .f32) (x2 : Vec F S2048x1 .i32) (acc : Vec F S8x128 .f32) :
    Vec F S8x128 .f32 :=
  k0_pay1 (k0_pay3 x0 x1 x2) (iota .tc S8x128 32 [0] iota_S8x128_d0_w32) (iota .tc S8x128 32 [1] iota_S8x128_d1_w32)
    k0_pay4 acc

/-- A point that is not the first of its run updates what the point before left. -/
theorem out_B (c : Dev nD) (i : grid0.Coords) (a2 : Memref sig .tc .vmem S2048x1024 .f32) (h2 : a2.IsWhole)
    (a3 : Memref sig .tc .vmem S96x1024 .f32) (h3 : a3.IsWhole) (a4 : Memref sig .tc .vmem S2048x1 .i32) (h4 : a4.IsWhole)
    (a5 : Memref sig .tc .vmem S8x128 .f32) (h5 : a5.IsWhole) (hc : ¬cond0_0 i)
    (x0 : Vec F S2048x1024 .f32) (x1 : Vec F S96x1024 .f32) (x2 : Vec F S2048x1 .i32) (xo : Vec F S8x128 .f32) :
    out0_B_3 c i a2 h2 a3 h3 a4 h4 a5 h5 hc x0 x1 x2 xo = step x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  unfold step
  simp only [View.readAt_eq_ld, h2.read_unread, h3.read_unread, h4.read_unread, h5.read_unread,
    View.ld_unit_zero (S := S2048x1024) hz, View.ld_unit_zero (S := S96x1024) hz, View.ld_unit_zero (S := S2048x1) hz,
    View.ld_unit_zero (S := S8x128) hz]

/-- The first point of a run updates the all-zero block it has just stored. -/
theorem out_A (c : Dev nD) (i : grid0.Coords) (a2 : Memref sig .tc .vmem S2048x1024 .f32) (h2 : a2.IsWhole)
    (a3 : Memref sig .tc .vmem S96x1024 .f32) (h3 : a3.IsWhole) (a4 : Memref sig .tc .vmem S2048x1 .i32) (h4 : a4.IsWhole)
    (a5 : Memref sig .tc .vmem S8x128 .f32) (h5 : a5.IsWhole) (hc : cond0_0 i)
    (x0 : Vec F S2048x1024 .f32) (x1 : Vec F S96x1024 .f32) (x2 : Vec F S2048x1 .i32) :
    out0_A_3 c i a2 h2 a3 h3 a4 h4 a5 h5 hc x0 x1 x2 = step x0 x1 x2 k0_pay2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz, View.readCov_unit_zero (S := S8x128) _ hz]
  unfold step
  simp only [View.readAt_eq_ld, h2.read_unread, h3.read_unread, h4.read_unread,
    View.ld_unit_zero (S := S2048x1024) hz, View.ld_unit_zero (S := S96x1024) hz, View.ld_unit_zero (S := S2048x1) hz,
    View.ld_unit_zero (S := S8x128) hz]

end Cert.KernelIdeal.Pieces

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.LibKeepDims.lean ====
/-
  Column vectors and sums along one axis, read at an entry.

  Summing an n × K array along its second axis and keeping that axis with extent one goes through three layout steps:
  the sum itself (a length-n vector), a cast of that vector to an n × 1 array, and, where the column is combined with
  an n × b array, a broadcast of the column along the rows. None of them changes a value: entry (i, u) of the cast is
  entry i of the vector, entry (p, c) of the broadcast is entry (p, 0) of the column, and a 1 × 1 array broadcast to
  any a × b array reads its one entry everywhere. Over the extended reals the sum along the second axis at row r is the
  sum over k of the entries (r, k), and the sum along the first axis of an n × 1 column is the sum over r of its entries
  (r, 0): no law of the extended reals is used, only the index set of the sum is renamed.
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibKeepDims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum of an n × K array of extended reals along its second axis, at row `r`: the sum over `k` of the entries
    `(r, k)`. -/
theorem sum_axis1_apply {n K : ℕ} (v : FVec Ideal ⟨2, ![n, K]⟩ .f32) (h : (⟨2, ![n, K]⟩ : Shape).Reduces [1] ⟨1, ![n]⟩)
    (hφ : FKind.Formats .f32) (hacc : (0x00000000#32 : BitVec 32) = FKind.add.neutral .f32 hφ) (r : Fin n) :
    multiReduction .add [1] ⟨1, ![n]⟩ v 0x00000000#32 h hφ hacc (ix1 r) = ∑ k : Fin K, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- The sum of an n × 1 column of extended reals along its first axis, at its one entry: the sum over `r` of the
    entries `(r, 0)`. -/
theorem sum_axis0_col_apply {n : ℕ} (v : FVec Ideal ⟨2, ![n, 1]⟩ .f32) (h : (⟨2, ![n, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ v 0x00000000#32 h hφ hacc (ix1 u) = ∑ r : Fin n, v (ix2 r (0 : Fin 1)) :=
  (Ideal.multiReduction_add_single v _ h hφ hacc (ix1 u)).trans
    (Finset.sum_congr rfl fun r _ => congrArg v (funext fun a => Fin.ext (by
      match a with
      | ⟨0, _⟩ => rfl
      | ⟨1, _⟩ => show (u : ℕ) = 0; omega)))

end Cert.LibKeepDims

end
-- ==== Proof.Tile.lean ====
/-
  The number one grid point adds to the corner of its output block.

  From its 2048 × 1024 block x0 of features, the 96 × 1024 centres x1 and its 2048 × 1 block x2 of labels the point
  forms, for every row r of the block and every class j, the squared distance ‖x0_r‖² + ‖x1_j‖² − 2 · ⟨x0_r, x1_j⟩
  (the inner product by the matrix unit, the two squared norms by sums along the rows), multiplies it by the bit
  "label of row r is j" read as a number, clips it, and sums over j and then over r. A narrowing of the float format
  is the identity on extended reals, the transposed centres read at (q, j) are the centres at (j, q), the matrix
  product into the zero array is the plain sum of products, and the column and row broadcasts read the column's and
  the row's entry: so the number is the double sum over (r, j) of the clipped masked distances of the block.
-/
import proofs.«177661_j85985245266075_1_alg».proof.Proof.Gen.KernelIdeal.Skeleton
import proofs.«177661_j85985245266075_1_alg».proof.Proof.Spec
import proofs.«177661_j85985245266075_1_alg».proof.Proof.LibDotPlain
import proofs.«177661_j85985245266075_1_alg».proof.Proof.LibKeepDims
import Idealize.ShloMosaic.Lib.Pipeline.Value
import Idealize.ShloMosaic.Lib.ValueLayout

noncomputable section

open scoped BigOperators

namespace Cert.KernelIdeal.Tile

open Idealize.ShloMosaic Idealize.ShloMosaic.ValueIdx
open Cert.KernelIdeal Cert.KernelIdeal.Gen Cert.CenterLoss Cert.LibKeepDims

/-- The clipped, masked squared distance of row `r` of a point's blocks and class `j`. -/
def blkTerm (x0 : FVec Ideal S2048x1024 .f32) (x1 : FVec Ideal S96x1024 .f32) (x2 : IVec S2048x1 32)
    (r : Fin 2048) (j : Fin 96) : EReal :=
  clip (((sqNorm x0 r + sqNorm x1 j) - Ideal.ofBits .f32 0x40000000#32 * ∑ k : Fin 1024, x0 (ix2 r k) * x1 (ix2 j k))
    * (((IntOp.cmpi .eq (x2 (ix2 r (0 : Fin 1))) (BitVec.ofNat 32 j.val)).toNat : ℝ) : EReal))

/-- The number the point computes: the sum of the block's terms. -/
theorem pay3_eq (x0 : FVec Ideal S2048x1024 .f32) (x1 : FVec Ideal S96x1024 .f32) (x2 : IVec S2048x1 32) :
    k0_pay3 (F := Ideal) x0 x1 x2 (ix2 (0 : Fin 1) (0 : Fin 1)) = ∑ r : Fin 2048, ∑ j : Fin 96, blkTerm x0 x1 x2 r j := by
  unfold k0_pay3
  refine (shapeCast_a_1a_apply _ _ (0 : Fin 1) (0 : Fin 1)).trans ?_
  refine (sum_axis0_col_apply _ _ _ _ (0 : Fin 1)).trans ?_
  refine Finset.sum_congr rfl fun r _ => ?_
  refine (shapeCast_a_a1_apply _ _ r (0 : Fin 1)).trans ?_
  refine (sum_axis1_apply _ _ _ _ r).trans ?_
  refine Finset.sum_congr rfl fun j _ => ?_
  unfold blkTerm clip sqNorm
  refine congrArg (min (Ideal.ofBits .f32 0x5368D4A5#32)) (congrArg (max (Ideal.ofBits .f32 0x2B8CBCCC#32)) ?_)
  refine congrArg₂ (· * ·) (congrArg₂ (· - ·) (congrArg₂ (· + ·) ?_ ?_) (congrArg (Ideal.ofBits .f32 0x40000000#32 * ·) ?_)) ?_
  · -- the features' squared norm, a column broadcast along the classes
    exact (broadcastTo_a1_ab_apply _ _ r j).trans ((shapeCast_a_a1_apply _ _ r (0 : Fin 1)).trans (sum_axis1_apply _ _ _ _ r))
  · -- the centres' squared norm, a row broadcast along the samples
    exact (broadcastTo_1b_ab_apply _ _ r j).trans ((shapeCast_a_1a_apply _ _ (0 : Fin 1) j).trans (sum_axis1_apply _ _ _ _ j))
  · -- the inner product: the matrix product with the transposed centres
    exact (Cert.LibDotPlain.matmul_zero_plain 2048 1024 96 none _ _ r j).trans
      (Finset.sum_congr rfl fun q _ => congrArg (x0 (ix2 r q) * ·) (transpose_ix2_apply _ _ q j))
  · -- the mask: the label compared with the class number
    refine (bit_signed_eq _).trans (congrArg (fun b : BitVec 1 => ((b.toNat : ℝ) : EReal)) (congrArg₂ (IntOp.cmpi .eq) ?_ ?_))
    · exact (broadcastTo_a1_ab_apply _ _ r j).trans (congrFun (shapeCast_self x2 _) _)
    · exact iota_single_apply .tc S2048x96 32 1 _ (ix2 r j)

/-- A block's term is the arrays' term of the sample the block's row is, when the block's row of features is that
    sample's, the block's centres are the centres and the block's label is the sample's. -/
theorem blkTerm_eq_term (x0 : FVec Ideal S2048x1024 .f32) (x1 : FVec Ideal S96x1024 .f32) (x2 : IVec S2048x1 32)
    (f : SFeat.Idx → EReal) (cen : SCen.Idx → EReal) (lab : SLab.Idx → BitVec 32) (r : Fin 2048) (b : Fin 65536) (j : Fin 96)
    (h0 : ∀ k, x0 (ix2 r k) = f (ix2 b k)) (h1 : ∀ k, x1 (ix2 j k) = cen (ix2 j k))
    (h2 : x2 (ix2 r (0 : Fin 1)) = lab (ix1 b)) :
    blkTerm x0 x1 x2 r j = term f cen lab b j := by
  unfold blkTerm term sqNorm cross hit
  simp only [h0, h1, h2]

end Cert.KernelIdeal.Tile

end
-- ==== Proof.Corner.lean ====
/-
  One point's update of the output block, entry by entry.

  The update adds to the block an 8 × 128 array that holds the point's number at the corner entry (row 0, lane 0) and
  zero everywhere else: the body builds it by selecting, under the bit "row number is 0 and lane number is 0", between
  the number broadcast to the whole block and the zero block. So at entry (q, l) the updated block is the old entry plus
  the point's number when q = 0 and l = 0, and plus zero otherwise.
-/
import proofs.«177661_j85985245266075_1_alg».proof.Proof.Pieces
import proofs.«177661_j85985245266075_1_alg».proof.Proof.Tile

noncomputable section

open scoped BigOperators

namespace Cert.KernelIdeal.Corner

open Idealize.ShloMosaic Idealize.ShloMosaic.ValueIdx
open Cert.KernelIdeal Cert.KernelIdeal.Gen Cert.KernelIdeal.Pieces Cert.KernelIdeal.Tile Cert.CenterLoss Cert.LibKeepDims

/-- The sum of a point's terms. -/
def blkTotal (x0 : FVec Ideal S2048x1024 .f32) (x1 : FVec Ideal S96x1024 .f32) (x2 : IVec S2048x1 32) : EReal :=
  ∑ r : Fin 2048, ∑ j : Fin 96, blkTerm x0 x1 x2 r j

theorem step_apply (x0 : FVec Ideal S2048x1024 .f32) (x1 : FVec Ideal S96x1024 .f32) (x2 : IVec S2048x1 32)
    (acc : FVec Ideal S8x128 .f32) (q : Fin 8) (l : Fin 128) :
    step (F := Ideal) x0 x1 x2 acc (ix2 q l) = acc (ix2 q l) + addend (blkTotal x0 x1 x2) q.val l.val := by
  unfold step k0_pay1
  refine congrArg₂ (· + ·) (congrFun (shapeCast_self acc _) _) ?_
  have e0 : iota .tc S8x128 32 [0] iota_S8x128_d0_w32 (ix2 q l) = BitVec.ofNat 32 q.val :=
    iota_single_apply .tc S8x128 32 0 _ (ix2 q l)
  have e1 : iota .tc S8x128 32 [1] iota_S8x128_d1_w32 (ix2 q l) = BitVec.ofNat 32 l.val :=
    iota_single_apply .tc S8x128 32 1 _ (ix2 q l)
  have hv : broadcastTo S8x128 (shapeCast S1x1 (k0_pay3 (F := Ideal) x0 x1 x2) shapeCasts_S1x1_S1x1)
      broadcasts_S1x1_S8x128 (ix2 q l) = blkTotal x0 x1 x2 :=
    (broadcastTo_11_ab_apply _ _ q l).trans ((congrFun (shapeCast_self _ _) _).trans (pay3_eq x0 x1 x2))
  show Scalar.select (IntOp.andi (IntOp.cmpi .eq (iota .tc S8x128 32 [0] iota_S8x128_d0_w32 (ix2 q l)) 0#32)
      (IntOp.cmpi .eq (iota .tc S8x128 32 [1] iota_S8x128_d1_w32 (ix2 q l)) 0#32))
    (broadcastTo S8x128 (shapeCast S1x1 (k0_pay3 (F := Ideal) x0 x1 x2) shapeCasts_S1x1_S1x1) broadcasts_S1x1_S8x128 (ix2 q l))
    (Ideal.ofBits .f32 0x00000000#32) = _
  rw [e0, e1, hv, Ideal.ofBits_zero_f32]
  unfold addend
  by_cases h : q.val = 0 ∧ l.val = 0
  · rw [if_pos h, (corner_bit q.val l.val q.isLt l.isLt).mpr h]
    exact select_one _ _
  · rw [if_neg h, eq_zero_of_ne_one (fun hb => h ((corner_bit q.val l.val q.isLt l.isLt).mp hb))]
    exact select_zero _ _

/-- The block the first point of a run starts from is all zero. -/
theorem zero_apply (q : Fin 8) (l : Fin 128) : k0_pay2 (F := Ideal) (ix2 q l) = 0 := Ideal.ofBits_zero_f32

end Cert.KernelIdeal.Corner

end
-- ==== Proof.Blocks.lean ====
/-
  What the three input windows show a grid point.

  Point t (numbered 0 to 31 in the order the grid is walked) is shown rows 2048 · t to 2048 · t + 2047 of the features, all of the
  centres, and rows 2048 · t to 2048 · t + 2047 of the labels, which the host has first laid out as a 65536 × 1 column
  (entry (b, 0) of the column is label b). An entry of a block sits in its array, on each axis, at the block's index
  times the block's size plus the entry's own coordinate. So the sum of the point's terms is the total of tile t.
-/
import proofs.«177661_j85985245266075_1_alg».proof.Proof.Gen.KernelIdeal.Frame
import proofs.«177661_j85985245266075_1_alg».proof.Proof.Corner
import Idealize.ShloMosaic.Lib.StableHlo.Run

noncomputable section

open scoped BigOperators

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Tile Cert.KernelIdeal.Corner Cert.CenterLoss Cert.LibKeepDims

variable (m : (ℓ : Loc nD τ sig) → Buf (Elt Ideal) ℓ)

/-- The three argument arrays on core `c`. -/
abbrev feats (c : Dev nD) : FVec Ideal S65536x1024 .f32 := m ((c : Thread nD τ).loc main_arg0)
abbrev cens (c : Dev nD) : FVec Ideal S96x1024 .f32 := m ((c : Thread nD τ).loc main_arg1)
abbrev labs (c : Dev nD) : IVec S65536 32 := m ((c : Thread nD τ).loc main_arg2)

/-- The three input blocks of point `t`. -/
abbrev fblk (c : Dev nD) (t : Fin cfg0.N) : FVec Ideal S2048x1024 .f32 := iblk m c 0 t
abbrev cblk (c : Dev nD) (t : Fin cfg0.N) : FVec Ideal S96x1024 .f32 := iblk m c 1 t
abbrev lblk (c : Dev nD) (t : Fin cfg0.N) : IVec S2048x1 32 := iblk m c 2 t

/-- The block indices of the four windows at point `t`: the features' and labels' row block is `t`, the centres' block
    never moves, the output's row block is the run `t / 16`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val / 16 ∧ win0_3.index t (1 : Fin 2) = 0 :=
  (by decide +kernel : ∀ t : Fin grid0.N, _)

/-- The label column the region finds: the labels cast to 65536 × 1. -/
theorem labcol_eq (c : Dev nD) :
    (V m c main_v0 : IVec S65536x1 32) = shapeCast S65536x1 (labs m c) shapeCasts_S65536_S65536x1 := by
  show StableHlo.after hostOps0 (fun b => m (c, b)) (Proc.devRef .tc main_v0) = _
  after_results
  rfl

theorem fblk_apply (c : Dev nD) (t : Fin cfg0.N) (r : Fin 2048) (k : Fin 1024) (b : Fin 65536)
    (hb : b.val = 2048 * t.val + r.val) : fblk m c t (ix2 r k) = feats m c (ix2 b k) := by
  obtain ⟨e0, e1, -⟩ := idx_facts t
  show V m c main_arg0 (((cfg0.win 0).blk t).view.emb (ix2 r k)) = _
  refine (congrFun (V_main_arg0 m c) _).trans (congrArg (feats m c) (funext fun a => Fin.ext ?_))
  match a with
  | ⟨0, _⟩ => show win0_0.index t (0 : Fin 2) * 2048 + 1 * r.val = b.val; rw [e0, hb]; omega
  | ⟨1, _⟩ => show win0_0.index t (1 : Fin 2) * 1024 + 1 * k.val = k.val; rw [e1]; omega

theorem cblk_apply (c : Dev nD) (t : Fin cfg0.N) (j : Fin 96) (k : Fin 1024) :
    cblk m c t (ix2 j k) = cens m c (ix2 j k) := by
  obtain ⟨-, -, e0, e1, -⟩ := idx_facts t
  show V m c main_arg1 (((cfg0.win 1).blk t).view.emb (ix2 j k)) = _
  refine (congrFun (V_main_arg1 m c) _).trans (congrArg (cens m c) (funext fun a => Fin.ext ?_))
  match a with
  | ⟨0, _⟩ => show win0_1.index t (0 : Fin 2) * 96 + 1 * j.val = j.val; rw [e0]; omega
  | ⟨1, _⟩ => show win0_1.index t (1 : Fin 2) * 1024 + 1 * k.val = k.val; rw [e1]; omega

theorem lblk_apply (c : Dev nD) (t : Fin cfg0.N) (r : Fin 2048) (b : Fin 65536)
    (hb : b.val = 2048 * t.val + r.val) : lblk m c t (ix2 r (0 : Fin 1)) = labs m c (ix1 b) := by
  obtain ⟨-, -, -, -, e0, e1, -⟩ := idx_facts t
  show V m c main_v0 (((cfg0.win 2).blk t).view.emb (ix2 r (0 : Fin 1))) = _
  refine (congrFun (labcol_eq m c) _).trans ?_
  refine (congrArg (shapeCast S65536x1 (labs m c) shapeCasts_S65536_S65536x1) (?_ : _ = ix2 b (0 : Fin 1))).trans
    (shapeCast_a_a1_apply (labs m c) shapeCasts_S65536_S65536x1 b (0 : Fin 1))
  refine funext fun a => Fin.ext ?_
  match a with
  | ⟨0, _⟩ => show win0_2.index t (0 : Fin 2) * 2048 + 1 * r.val = b.val; rw [e0, hb]; omega
  | ⟨1, _⟩ => show win0_2.index t (1 : Fin 2) * 1 + 1 * 0 = 0; rw [e1]

/-- The sum of point `t`'s terms is the total of tile `t`. -/
theorem blkTotal_eq (c : Dev nD) (t : Fin cfg0.N) :
    blkTotal (fblk m c t) (cblk m c t) (lblk m c t) = tileTotalN (feats m c) (cens m c) (labs m c) t.val := by
  have hN : cfg0.N = 32 := N_0
  have ht : t.val < 32 := by have := t.isLt; omega
  unfold tileTotalN
  rw [dif_pos ht]
  unfold blkTotal tileTotal
  refine Finset.sum_congr rfl fun r _ => Finset.sum_congr rfl fun j _ => ?_
  exact blkTerm_eq_term (fblk m c t) (cblk m c t) (lblk m c t) (feats m c) (cens m c) (labs m c) r (tileRow ⟨t.val, ht⟩ r) j
    (fun k => fblk_apply m c t r k _ rfl) (fun k => cblk_apply m c t j k) (lblk_apply m c t r _ rfl)

end Cert.KernelIdeal.Blocks

end
-- ==== Proof.Accum.lean ====
/-
  The output array after the run.

  Within a run of 16 consecutive points the output block is carried from point to point: the first point of the run
  starts from the all-zero block, every point adds its tile's total at the corner entry, and the block is written
  back to the array after the run's last point. So after point n the block holds, at entry (q, l), the sum over the
  points of the run up to n of their addends at (q, l) — by induction on n — and the array ends holding, in row block
  p (rows 8 · p to 8 · p + 7), the block of run p after its sixteenth point. The two row blocks tile the 16 × 128 array.
-/
import proofs.«177661_j85985245266075_1_alg».proof.Proof.Blocks

noncomputable section

open scoped BigOperators

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Tile Cert.KernelIdeal.Corner
open Cert.KernelIdeal.Blocks Cert.CenterLoss

variable (m : (ℓ : Loc nD τ sig) → Buf (Elt Ideal) ℓ)

/-- The total of tile `n` of the arguments on core `c`. -/
abbrev T (c : Dev nD) (n : ℕ) : EReal := tileTotalN (feats m c) (cens m c) (labs m c) n

/-- After the first point of a run the block holds that point's addends. -/
theorem pt_first (c : Dev nD) (t : Fin cfg0.N) (h0 : t.val % 16 = 0) (q : Fin 8) (l : Fin 128) :
    (outsAt0 m c t.val t.isLt : FVec Ideal S8x128 .f32) (ix2 q l) = addend (T m c t.val) q.val l.val := by
  refine (congrFun ((outsAt0_A m c t h0).trans (out_A (F := Ideal) c (grid0.coords t) (ms0_0 t) (hs0_0 t) (ms0_1 t) (hs0_1 t)
    (ms0_2 t) (hs0_2 t) (ms0_3 t) (hs0_3 t) ((hcond0_0 t).mpr h0) (fblk m c t) (cblk m c t) (lblk m c t))) (ix2 q l)).trans ?_
  refine (step_apply (fblk m c t) (cblk m c t) (lblk m c t) (k0_pay2 (F := Ideal)) q l).trans ?_
  rw [zero_apply, zero_add, blkTotal_eq]

/-- After a later point the block holds what the point before left plus the point's addends. -/
theorem pt_later (c : Dev nD) (t : Fin cfg0.N) (h0 : ¬t.val % 16 = 0) (q : Fin 8) (l : Fin 128) :
    (outsAt0 m c t.val t.isLt : FVec Ideal S8x128 .f32) (ix2 q l)
      = (outsAt0 m c (t.val - 1) (Nat.lt_of_le_of_lt (Nat.sub_le _ _) t.isLt) : FVec Ideal S8x128 .f32) (ix2 q l)
        + addend (T m c t.val) q.val l.val := by
  refine (congrFun ((outsAt0_B m c t h0).trans (out_B (F := Ideal) c (grid0.coords t) (ms0_0 t) (hs0_0 t) (ms0_1 t) (hs0_1 t)
    (ms0_2 t) (hs0_2 t) (ms0_3 t) (hs0_3 t) (fun h => h0 ((hcond0_0 t).mp h)) (fblk m c t) (cblk m c t) (lblk m c t)
    (outsAt0 m c (t.val - 1) (Nat.lt_of_le_of_lt (Nat.sub_le _ _) t.isLt)))) (ix2 q l)).trans ?_
  refine (step_apply (fblk m c t) (cblk m c t) (lblk m c t)
    (outsAt0 m c (t.val - 1) (Nat.lt_of_le_of_lt (Nat.sub_le _ _) t.isLt)) q l).trans ?_
  rw [blkTotal_eq]

/-- After point `n` the block holds the addends of the points of `n`'s run up to `n`. -/
theorem outsAt_apply (c : Dev nD) (q : Fin 8) (l : Fin 128) : ∀ (n : ℕ) (h : n < cfg0.N),
    (outsAt0 m c n h : FVec Ideal S8x128 .f32) (ix2 q l)
      = ∑ u ∈ Finset.range (n % 16 + 1), addend (T m c (16 * (n / 16) + u)) q.val l.val := by
  intro n
  induction n with
  | zero =>
    intro h
    refine (pt_first m c ⟨0, h⟩ rfl q l).trans ?_
    show addend (T m c 0) q.val l.val = _
    rw [show 0 % 16 + 1 = 1 from rfl, Finset.sum_range_one]
  | succ k ih =>
    intro h
    by_cases h0 : (k + 1) % 16 = 0
    · refine (pt_first m c ⟨k + 1, h⟩ h0 q l).trans ?_
      show addend (T m c (k + 1)) q.val l.val = _
      rw [h0, Finset.sum_range_one, show 16 * ((k + 1) / 16) + 0 = k + 1 by omega]
    · refine (pt_later m c ⟨k + 1, h⟩ h0 q l).trans ?_
      show (outsAt0 m c k (Nat.lt_of_succ_lt h) : FVec Ideal S8x128 .f32) (ix2 q l) + addend (T m c (k + 1)) q.val l.val = _
      rw [show (k + 1) % 16 = k % 16 + 1 by omega, show (k + 1) / 16 = k / 16 by omega,
        Finset.sum_range_succ _ (k % 16 + 1), ih (Nat.lt_of_succ_lt h),
        show 16 * (k / 16) + (k % 16 + 1) = k + 1 by omega]

/-- The array the output ends at: entry `(R, L)` holds the sum over the 16 tiles of run `R / 8` of their addends at
    `(R % 8, L)`. -/
def finalArr (c : Dev nD) : FVec Ideal S16x128 .f32 := fun i =>
  ∑ u ∈ Finset.range 16, addend (T m c (16 * ((i 0).val / 8) + u)) ((i 0).val % 8) (i 1).val

/-- What the last point of a run writes back is its row block of that array. -/
theorem flushed_eq (c : Dev nD) (t : Fin cfg0.N) (hf : (cfg0.win 3).flush t = true) :
    (dats m 0 c).flushed 3 t = ((cfg0.win 3).blk t).view.read (Elt Ideal) (finalArr m c) := by
  have h15 : t.val % 16 = 15 := (flush0_3 t).mp hf
  obtain ⟨-, -, -, -, -, -, e0, e1⟩ := idx_facts t
  show (cfg0.win 3).cut (grid0.coords t) ((dats m 0 c).after 3 t) = _
  rw [after0_3]
  funext y
  obtain ⟨q, l, rfl⟩ : ∃ (q : Fin 8) (l : Fin 128), y = ix2 q l := ⟨y 0, y 1, eq_ix2 y⟩
  have c0 : ((((cfg0.win 3).blk t).view.emb (ix2 q l)) 0).val = (t.val / 16) * 8 + q.val := by
    show win0_3.index t (0 : Fin 2) * 8 + 1 * q.val = _
    rw [e0]; omega
  have c1 : ((((cfg0.win 3).blk t).view.emb (ix2 q l)) 1).val = l.val := by
    show win0_3.index t (1 : Fin 2) * 128 + 1 * l.val = _
    rw [e1]; omega
  show (outsAt0 m c t.val t.isLt : FVec Ideal S8x128 .f32) (ix2 q l)
    = ∑ u ∈ Finset.range 16, addend (T m c (16 * (((((cfg0.win 3).blk t).view.emb (ix2 q l)) 0).val / 8) + u))
        (((((cfg0.win 3).blk t).view.emb (ix2 q l)) 0).val % 8) ((((cfg0.win 3).blk t).view.emb (ix2 q l)) 1).val
  have hq := q.isLt
  rw [outsAt_apply m c q l t.val t.isLt, h15, c0, c1,
    show (t.val / 16 * 8 + q.val) / 8 = t.val / 16 by omega, show (t.val / 16 * 8 + q.val) % 8 = q.val by omega]

/-- An index of the array is in point `t`'s output block iff each coordinate is in the block's range on its axis. -/
theorem mem_blk (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v1).slice (win0_3.rect t)).set ↔ _
  rw [View.set_slice_whole, Rect.mem_set_unit]
  exact Iff.rfl

/-- Every entry of the array lies in the block the last point of its run writes back. -/
theorem cover (i : S16x128.Idx) :
    ∃ t : Fin cfg0.N, (cfg0.win 3).flush t = true ∧ i ∈ ((cfg0.win 3).blk t).view.set := by
  have hN : cfg0.N = 32 := N_0
  have hi0 : (i 0).val < 16 := (i 0).isLt
  have hi1 : (i 1).val < 128 := (i 1).isLt
  have ht : 16 * ((i 0).val / 8) + 15 < cfg0.N := by omega
  obtain ⟨-, -, -, -, -, -, e0, e1⟩ := idx_facts ⟨16 * ((i 0).val / 8) + 15, ht⟩
  have e0' : win0_3.index ⟨16 * ((i 0).val / 8) + 15, ht⟩ (0 : Fin 2) = (16 * ((i 0).val / 8) + 15) / 16 := e0
  refine ⟨⟨16 * ((i 0).val / 8) + 15, ht⟩, (flush0_3 _).mpr (by show (16 * ((i 0).val / 8) + 15) % 16 = 15; omega), ?_⟩
  rw [mem_blk]
  intro a
  match a with
  | ⟨0, _⟩ =>
    show win0_3.index ⟨16 * ((i 0).val / 8) + 15, ht⟩ (0 : Fin 2) * 8 ≤ (i 0).val
      ∧ (i 0).val < win0_3.index ⟨16 * ((i 0).val / 8) + 15, ht⟩ (0 : Fin 2) * 8 + 8
    rw [e0']; omega
  | ⟨1, _⟩ =>
    show win0_3.index ⟨16 * ((i 0).val / 8) + 15, ht⟩ (1 : Fin 2) * 128 ≤ (i 1).val
      ∧ (i 1).val < win0_3.index ⟨16 * ((i 0).val / 8) + 15, ht⟩ (1 : Fin 2) * 128 + 128
    rw [e1]; omega

/-- So the output array ends holding `finalArr`. -/
theorem final_eq (c : Dev nD) : (dats m 0 c).arrAt 3 cfg0.N = finalArr m c :=
  (dats m 0 c).arrAt_eq_of_cover 3 (finalArr m c) (flushed_eq m c) cover

end Cert.KernelIdeal.Accum

end
-- ==== Proof.Result.lean ====
/-
  The idealized kernel's result is the centre loss.

  After the region the host sums the 16 × 128 output array over all its entries, starting from a zero, and divides by
  65536. The array holds the corner sums of the tile totals, which sum to the total of all terms; the leading zero adds
  nothing; so the result is the total divided by 65536, the loss.
-/
import proofs.«177661_j85985245266075_1_alg».proof.Proof.Accum
import Idealize.ShloMosaic.Lib.StableHlo.Run

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.CenterLoss

variable (m : (ℓ : Loc nD τ sig) → Buf (Elt Ideal) ℓ) (ρ : Dev nD → PrngReg)

/-- The host's sum of the output array is the total of all terms. -/
theorem sum_final (c : Dev nD) (i : S_.Idx) :
    Host.reduceAdd (F := Ideal) (finalArr m c) (constant S_ .f32 0x00000000#32) reducesTo_S16x128_S_d0_1 h_S_ i
      = total (feats m c) (cens m c) (labs m c) := by
  simp only [Host.reduceAdd, Ideal.hostReduceAdd_def]
  refine (Ideal.hostReduceAdd_total reducesTo_S16x128_S_d0_1 (fun b => b.elim0) (finalArr m c) _ i).trans ?_
  rw [sum_idx2]
  show Ideal.ofBits .f32 0x00000000#32 + _ = _
  rw [Ideal.ofBits_zero_f32, zero_add]
  exact corner_sum_eq_total (feats m c) (cens m c) (labs m c)

/-- What the lines after the region leave in the result buffer. -/
theorem tail_eq (c : Dev nD) :
    Pipeline.afterTail₀ cfgs (dats m) 0 (V0 m) [hostOps1] c main_v3 = fun _ => loss (feats m c) (cens m c) (labs m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v1) = finalArr m c :=
    (Pipeline.withArrays_arr spec0 launch0.win.arr_inj c _ _ 3).trans (final_eq m c)
  rw [hw]
  funext i
  show Ideal.div (Host.reduceAdd (F := Ideal) (finalArr m c) (constant S_ .f32 0x00000000#32) reducesTo_S16x128_S_d0_1 h_S_ i)
    (Ideal.ofBits .f32 0x47800000#32) = _
  rw [sum_final]
  rfl

/-- The run of the idealized kernel, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v3) = (fun _ => loss (feats m c) (cens m c) (labs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Result

end
-- ==== Proof.lean ====
/-
  The certificate of the centre-loss kernel against its reference.

  Both programs compute, over the extended reals, the same number: for every sample b and class j the squared distance
  ‖f_b‖² + ‖c_j‖² − 2 · ⟨f_b, c_j⟩, multiplied by 1 when the label of b is j and by 0 otherwise, clipped into [lo, hi],
  summed over all pairs and divided by the number of samples. The reference sums all 65536 × 96 pairs at once. The
  kernel walks 32 tiles of 2048 samples in two runs of 16; each tile adds its total at the corner entry of the run's
  8 × 128 block, the two blocks are stacked into a 16 × 128 array, and the host sums that array and divides. The two
  sums differ only in how the pairs are grouped, and addition of extended reals is commutative and associative, so no
  finiteness of the inputs is needed. The three frames are the generated ones (the reference's from its generated
  run); the idealization rewrote nothing.
-/
import proofs.«177661_j85985245266075_1_alg».proof.Defs
import proofs.«177661_j85985245266075_1_alg».proof.Proof.Gen.Kernel
import proofs.«177661_j85985245266075_1_alg».proof.Proof.Gen.Kernel.Skeleton
import proofs.«177661_j85985245266075_1_alg».proof.Proof.Gen.Kernel.Launch
import proofs.«177661_j85985245266075_1_alg».proof.Proof.Gen.Kernel.Points
import proofs.«177661_j85985245266075_1_alg».proof.Proof.Gen.Kernel.Frame
import proofs.«177661_j85985245266075_1_alg».proof.Proof.Gen.KernelIdeal
import proofs.«177661_j85985245266075_1_alg».proof.Proof.Gen.KernelIdeal.Skeleton
import proofs.«177661_j85985245266075_1_alg».proof.Proof.Gen.KernelIdeal.Launch
import proofs.«177661_j85985245266075_1_alg».proof.Proof.Gen.KernelIdeal.Points
import proofs.«177661_j85985245266075_1_alg».proof.Proof.Gen.KernelIdeal.Frame
import proofs.«177661_j85985245266075_1_alg».proof.Proof.Gen.ReferenceIdeal
import proofs.«177661_j85985245266075_1_alg».proof.Proof.Gen.Pre_finite_inputs
import proofs.«177661_j85985245266075_1_alg».proof.Proof.Gen.ReferenceIdeal.Run
import proofs.«177661_j85985245266075_1_alg».proof.Proof.Gen.ReferenceIdeal.Read
import proofs.«177661_j85985245266075_1_alg».proof.Proof.RefSide
import proofs.«177661_j85985245266075_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree both programs end at the loss of those arguments. -/
theorem algebraic : Cert.algebraic_KernelIdeal_ReferenceIdeal := by
  intro m ρ m' ρ' _ hagree
  refine ⟨fun c => fun _ => Cert.CenterLoss.loss (Cert.KernelIdeal.Blocks.feats m c) (Cert.KernelIdeal.Blocks.cens m c)
    (Cert.KernelIdeal.Blocks.labs m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  funext i
  exact Cert.ReferenceIdeal.RefValue.result_eq _ _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
